-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x256 : Shape := ⟨3, ![8, 2048, 256]⟩
abbrev S_ : Shape := ⟨0, ![]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel

variable [Facts]

def fn {F : FTy → Type} [FloatOps F] (main_arg0 : FVec F S8x2048x256 .f32) : IVec S_ 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_c : IVec S_ 1 := constantI S_ 1 1#1
  let main_v3 : IVec S_ 1 := (fun x v => Host.reduce IntOp.andi x v reducesTo_S8x2048x256_S_d0_1_2 h_S_) main_v2 main_c
  main_v3
-- ==== Kernel.lean ====
abbrev S8x2048x256 : Shape := ⟨3, ![8, 2048, 256]⟩
abbrev S8x2048x2048 : Shape := ⟨3, ![8, 2048, 2048]⟩
abbrev S1x512x256 : Shape := ⟨3, ![1, 512, 256]⟩
abbrev S1x2048x256 : Shape := ⟨3, ![1, 2048, 256]⟩
abbrev S1x512x2048 : Shape := ⟨3, ![1, 512, 2048]⟩
abbrev S512x256 : Shape := ⟨2, ![512, 256]⟩
abbrev S2048x256 : Shape := ⟨2, ![2048, 256]⟩
abbrev S512x2048 : Shape := ⟨2, ![512, 2048]⟩
abbrev S512 : Shape := ⟨1, ![512]⟩
abbrev S512x1 : Shape := ⟨2, ![512, 1]⟩
abbrev S2048 : Shape := ⟨1, ![2048]⟩
abbrev S1x2048 : Shape := ⟨2, ![1, 2048]⟩

abbrev nBuf : Space → Nat
  | .hbm => 2
  | .vmem => 6
  | .smem => 0
  | _ => 0

abbrev bufTy : (tb : Table) → Fin (tcTables nBuf tb) → BufTy
  | .hbm, ⟨0, _⟩ => ⟨S8x2048x256, .f32⟩
  | .hbm, ⟨1, _⟩ => ⟨S8x2048x2048, .f32⟩
  | .local _ .vmem, ⟨0, _⟩ => ⟨S1x512x256, .f32⟩
  | .local _ .vmem, ⟨1, _⟩ => ⟨S1x512x256, .f32⟩
  | .local _ .vmem, ⟨2, _⟩ => ⟨S1x2048x256, .f32⟩
  | .local _ .vmem, ⟨3, _⟩ => ⟨S1x2048x256, .f32⟩
  | .local _ .vmem, ⟨4, _⟩ => ⟨S1x512x2048, .f32⟩
  | .local _ .vmem, ⟨5, _⟩ => ⟨S1x512x2048, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  bitsLt_bf16_f32 : FTy.bits .bf16 < FTy.bits .f32
  reduces_S512x256_S512 : S512x256.Reduces [1] S512
  shapeCasts_S512_S512x1 : S512.ShapeCasts S512x1
  reduces_S2048x256_S2048 : S2048x256.Reduces [1] S2048
  shapeCasts_S2048_S1x2048 : S2048.ShapeCasts S1x2048
  broadcasts_S512x1_S512x2048 : S512x1.Broadcasts S512x2048
  broadcasts_S1x2048_S512x2048 : S1x2048.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  dot_S512x256_S2048x256_S512x2048_1_1_0_0_n_n_wf : DotDims.WF S512x256 S2048x256 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x256.size a ≤ S8x2048x256.size a
  hwx0_0 : ∀ i : grid0.Coords, EltTy.bits .f32 = 32 ∨ (Rect.block (s := S8x2048x256) S1x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S8x2048x256.size a
  hwx0_1 : ∀ i : grid0.Coords, EltTy.bits .f32 = 32 ∨ (Rect.block (s := S8x2048x256) S1x2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x2048.size a ≤ S8x2048x2048.size a
  hwx0_2 : ∀ i : grid0.Coords, EltTy.bits .f32 = 32 ∨ (Rect.block (s := S8x2048x2048) S1x512x2048.size (cc0_transform_2 i) (hinb0_2 i)).WholeWords (EltTy.packing .f32)

variable [Facts₀]

def dot_S512x256_S2048x256_S512x2048_1_1_0_0_n_n : DotDims S512x256 S2048x256 S512x2048 where
  lhsContracting := [1]
  rhsContracting := [1]
  lhsNonContracting := [0]
  rhsNonContracting := [0]
  lhsBatch := []
  rhsBatch := []
  wf := dot_S512x256_S2048x256_S512x2048_1_1_0_0_n_n_wf

abbrev win0_0 : Pipeline.Window sig grid0 :=
  Pipeline.Window.ofSpec (Memref.whole main_arg0) S1x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x256 : Shape := ⟨3, ![8, 2048, 256]⟩
abbrev S_ : Shape := ⟨0, ![]⟩
abbrev S8x2048 : Shape := ⟨2, ![8, 2048]⟩
abbrev S8x2048x2048 : Shape := ⟨3, ![8, 2048, 2048]⟩
abbrev S8x2048x1 : Shape := ⟨3, ![8, 2048, 1]⟩
abbrev S8x1x2048 : Shape := ⟨3, ![8, 1, 2048]⟩

abbrev nBuf : Space → Nat
  | .hbm => 17
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S8x2048x256, .f32⟩
  | .hbm, ⟨2, _⟩ => ⟨S_, .f32⟩
  | .hbm, ⟨3, _⟩ => ⟨S8x2048, .f32⟩
  | .hbm, ⟨4, _⟩ => ⟨S8x2048x2048, .f32⟩
  | .hbm, ⟨5, _⟩ => ⟨S8x2048x1, .f32⟩
  | .hbm, ⟨6, _⟩ => ⟨S8x1x2048, .f32⟩
  | .hbm, ⟨7, _⟩ => ⟨S8x2048x2048, .f32⟩
  | .hbm, ⟨8, _⟩ => ⟨S8x2048x2048, .f32⟩
  | .hbm, ⟨9, _⟩ => ⟨S8x2048x2048, .f32⟩
  | .hbm, ⟨10, _⟩ => ⟨S_, .f32⟩
  | .hbm, ⟨11, _⟩ => ⟨S8x2048x2048, .f32⟩
  | .hbm, ⟨12, _⟩ => ⟨S8x2048x2048, .f32⟩
  | .hbm, ⟨13, _⟩ => ⟨S8x2048x2048, .f32⟩
  | .hbm, ⟨14, _⟩ => ⟨S_, .f32⟩
  | .hbm, ⟨15, _⟩ => ⟨S8x2048x2048, .f32⟩
  | .hbm, ⟨16, _⟩ => ⟨S8x2048x2048, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]

class Facts₀ : Prop where
  reducesTo_S8x2048x256_S8x2048_d2 : S8x2048x256.ReducesTo [2] S8x2048
  h_S_ : 0 < S_.numel
  bcast_S8x2048_S8x2048x1_0_1 : S8x2048.BroadcastsInDim S8x2048x1 (![0, 1] : Fin 2 → Fin S8x2048x1.rank)
  bcast_S8x2048_S8x1x2048_0_2 : S8x2048.BroadcastsInDim S8x1x2048 (![0, 2] : Fin 2 → Fin S8x1x2048.rank)
  bcast_S8x2048x1_S8x2048x2048_0_1_2 : S8x2048x1.BroadcastsInDim S8x2048x2048 (![0, 1, 2] : Fin 3 → Fin S8x2048x2048.rank)
  bcast_S8x1x2048_S8x2048x2048_0_1_2 : S8x1x2048.BroadcastsInDim S8x2048x2048 (![0, 1, 2] : Fin 3 → Fin S8x2048x2048.rank)
  bcast_S_S8x2048x2048 : S_.BroadcastsInDim S8x2048x2048 (![] : Fin 0 → Fin S8x2048x2048.rank)
  dot_S8x2048x256_S8x2048x256_S8x2048x2048_2_2_1_1_0_0_wf : DotDims.WF S8x2048x256 S8x2048x256 S8x2048x2048 [2] [2] [1] [1] [0] [0]

variable [Facts₀]

def dot_S8x2048x256_S8x2048x256_S8x2048x2048_2_2_1_1_0_0 : DotDims S8x2048x256 S8x2048x256 S8x2048x2048 where
  lhsContracting := [2]
  rhsContracting := [2]
  lhsNonContracting := [1]
  rhsNonContracting := [1]
  lhsBatch := [0]
  rhsBatch := [0]
  wf := dot_S8x2048x256_S8x2048x256_S8x2048x2048_2_2_1_1_0_0_wf

class Facts : Prop extends Facts₀ where

variable [Facts]
-- ==== Proof.TileRunBits.lean ====
/-
  The kernel's run, tile by tile, at any reading of the floats (nothing here looks inside the body's arithmetic).

  The grid has 8 × 4 points; point (b, i) is handed rows [512 i, 512 i + 512) of batch b (window 0), all 2048 rows of
  batch b (window 1) — two windows onto the ONE argument array — and writes the 512 × 2048 tile of squared distances
  between them (window 2). The body only reads its two input tiles and overwrites the whole output tile, so what the
  output tile holds after the body is one function of the two input tiles, whatever it held before.

  Because both input windows read one array, that array's full share is dealt between them: the left half to the row
  tile's window, the right half to the all-rows window. Neither window writes, so half a share each is enough, and the
  halves rejoin to the array unchanged when the region ends.
-/
import proofs.«111650_j67018669686961_1_alg».proof.Proof.Gen.Kernel.Launch
import proofs.«111650_j67018669686961_1_alg».proof.Proof.Gen.Kernel.Skeleton
import proofs.«111650_j67018669686961_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- The program is the region alone, so the region finds every array as launched. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window w's tile at point t, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row tile's buffer holds the row tile at every point. -/
theorem before_rows_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The all-rows buffer holds the batch's rows at every point: fetched at the first point of each batch, and left in
    place by the body at the three points after it, where the batch has not changed. -/
theorem before_all_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output tile -/

abbrev rRows : Rect S1x512x256 := Rect.unit (s := S1x512x256) ![0, 0, 0] S1x512x256.size inb_S1x512x256_S1x512x256_0_0_0
abbrev rAll : Rect S1x2048x256 := Rect.unit (s := S1x2048x256) ![0, 0, 0] S1x2048x256.size inb_S1x2048x256_S1x2048x256_0_0_0
abbrev rOut : Rect S1x512x2048 := Rect.unit (s := S1x512x2048) ![0, 0, 0] S1x512x2048.size inb_S1x512x2048_S1x512x2048_0_0_0

/-- The output tile after the body: its one store, of the body's arithmetic on the two input tiles. -/
def outTile (x0 : Vec F S1x512x256 .f32) (x1 : Vec F S1x2048x256 .f32) : Vec F S1x512x2048 .f32 :=
  View.canon [⟨rOut, k0_pay1 (View.ld x0 rRows) (View.ld x1 rAll)⟩]

/-- The one store covers the tile. -/
theorem outCover (p0 : Vec F S1x512x2048 .f32) (y : S1x512x2048.Idx) :
    ∃ pc ∈ ([⟨rOut, p0⟩] : List (View.Piece (Elt F) S1x512x2048 .f32)), y ∈ pc.1.set :=
  View.cover_of_tiled [⟨rOut, p0⟩] S1x512x2048.size (by rfl) y

set_option maxHeartbeats 1000000 in
/-- The body on whole buffers, the inputs' at x0 and x1 and the output's at anything: it ends with the inputs as they
    were and the output at outTile x0 x1. -/
theorem sound_kernel (c : Dev nD) (E : Set ℕ) (i : grid0.Coords) (arg2 : Memref sig .tc .vmem S1x512x256 .f32) (harg2 : arg2.IsWhole) (arg3 : Memref sig .tc .vmem S1x2048x256 .f32) (harg3 : arg3.IsWhole) (arg4 : Memref sig .tc .vmem S1x512x2048 .f32) (harg4 : arg4.IsWhole)
    (x0 : Vec F S1x512x256 .f32) (x1 : Vec F S1x2048x256 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outTile x0 x1)) -∗ K ⟨⟩))
      ⊢ wp frame (wpE (defs₀ (F := F)) Variants.none c none) E (cc0__dist_kernel i arg2 harg2 arg3 harg3 arg4 harg4) K := by
  simp only [cc0__dist_kernel_eq_skeleton]; unfold cc0__dist_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outCover _)

/-! ## The proof data -/

/-- Per core: the arrays as launched; after the body each input buffer at its tile and the output buffer at the body's
    function of the two; between points only the scoped buffers that are no staging buffer; the shared array's full share
    halved between the two windows that read it; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outTile (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_rows (c : Dev nD) (t : Fin cfg0.N) : (dats m 0 c).after 0 t = iblk m c 0 t := by dsimp only [dats]
theorem after_all (c : Dev nD) (t : Fin cfg0.N) : (dats m 0 c).after 1 t = iblk m c 1 t := by dsimp only [dats]
theorem after_out (c : Dev nD) (t : Fin cfg0.N) : (dats m 0 c).after 2 t = outTile (iblk m c 0 t) (iblk m c 1 t) := by dsimp only [dats]

theorem before_rows (c : Dev nD) (t : Fin cfg0.N) (d) : (dats m 0 c).before 0 t d = iblk m c 0 t :=
  before_rows_of m (dats m 0 c) (A_eq m c 0) (after_rows m c) t d
theorem before_all (c : Dev nD) (t : Fin cfg0.N) (d) : (dats m 0 c).before 1 t d = iblk m c 1 t :=
  before_all_of m (dats m 0 c) (A_eq m c 1) (after_all m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_rows, before_all]
  rw [show (dats m 0 c).Φ t.succ = (dats m 0 c).Φ t.castSucc from rfl,
    show (dats m 0 c).owesAt () t.succ = (dats m 0 c).owesAt () t.castSucc from rfl,
    after_rows, after_all, after_out]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## Dealing the arrays to the windows -/

theorem share_rows (c : Dev nD) : (dats m 0 c).share 0 = fullShare.left := rfl
theorem share_all (c : Dev nD) : (dats m 0 c).share 1 = fullShare.right := rfl
theorem share_out (c : Dev nD) : (dats m 0 c).share 2 = fullShare := rfl

/-- A resource that splits in two, beside another: the three in a row. -/
theorem deal_halves {A AL AR B : sProp 𝕄} (h : A ⊢ BI.sep AL AR) : BI.sep A B ⊢ BI.sep AL (BI.sep AR B) :=
  (Idealize.SL.BI.sep_mono_l h).trans Idealize.SL.BI.sep_assoc

/-- The two distinct arrays behind the three windows, each whole at the full share, are the windows' arrays at their
    shares: the argument array's full share is its left half (the row tile's window) and its right half (the all-rows
    window), the result array goes whole to the output window. -/
theorem arrays_dealt (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_W0]
  rw [bigSep_eq_bigSepL_of_eq [main_arg0, main_v0] (by decide) (by decide)]
  simp only [bigSepL_cons_cons, bigSepL_singleton]
  rw [share_rows, share_all, share_out]
  rw [show (dats m 0 c).arrAt 0 0 = V m c main_arg0 from rfl, show (dats m 0 c).arrAt 1 0 = V m c main_arg0 from rfl,
    show (dats m 0 c).arrAt 2 0 = V m c main_v0 from rfl]
  rw [(Memref.isWhole_whole main_arg0).set_eq_univ, (Memref.isWhole_whole main_v0).set_eq_univ]
  exact deal_halves (pointsTo_share (PosShare.mem_left_op_right fullShare)).1

/-! ## The run -/

theorem inv_eq (c : Dev nD) (t : Fin (cfg0.N + 1)) :
    (dats m 0 c).Φ t = Pipeline.scopedRest (Ix := Unit) (Name := ℕ) (U := UR sig nD τ) (Lvl := ℕ) (Val := Elt F) (cfgs 0).spec c := rfl

set_option backward.isDefEq.respectTransparency.types false in
/-- From any memory with zero counters every weakly fair execution of the program ends, faulting nowhere, with every
    window's array at what the write-backs of the proof data make of its entry contents. -/
theorem run_main : θ_run defs (onTc (τ := τ) (main (F := F))) (s₀ m ρ)
    (fun r => ∀ c : Dev nD, ∀ w : Fin cfg0.W, r.2.mem ((cfg0.spec w).arr.view.loc (c.tc : Thread nD τ)) = (dats m 0 c).arrAt w cfg0.N) :=
  Pipeline.θ_run_region_noSem_shared (Ix := Unit) (Name := ℕ) (U := UR sig nD τ) (Lvl := ℕ) cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := arrays_dealt m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by rw [inv_eq]; iintro ⟨-, H⟩; iexact H)
    (hout := fun c => by rw [inv_eq]; iintro H; isplitr; · iempintro
                         iexact H)
    (QY := fun _ _ => True)
    (hY := fun c s' => by iintro ⟨-, -, HSI⟩; imodintro; isplitr; · ipureintro; trivial
                          iexact HSI)
    (hQ := fun s h c w => (h c).1 w)

/-- info: 'Cert.Kernel.Tile.run_main' depends on axioms: [propext, Classical.choice, Quot.sound] -/
#guard_msgs in #print axioms run_main

/-- The frame: the program ends, faults nowhere, and leaves its argument array as launched — an input window's array is
    never written back. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c 0).trans (((dats m 0 c).arrAt_in 0 rfl _).trans (A_eq m c 0))) (run_main m ρ)

end Cert.Kernel.Tile

end
-- ==== Proof.TileRunIdeal.lean ====
/-
  The kernel's run, tile by tile, at any reading of the floats (nothing here looks inside the body's arithmetic).

  The grid has 8 × 4 points; point (b, i) is handed rows [512 i, 512 i + 512) of batch b (window 0), all 2048 rows of
  batch b (window 1) — two windows onto the ONE argument array — and writes the 512 × 2048 tile of squared distances
  between them (window 2). The body only reads its two input tiles and overwrites the whole output tile, so what the
  output tile holds after the body is one function of the two input tiles, whatever it held before.

  Because both input windows read one array, that array's full share is dealt between them: the left half to the row
  tile's window, the right half to the all-rows window. Neither window writes, so half a share each is enough, and the
  halves rejoin to the array unchanged when the region ends.
-/
import proofs.«111650_j67018669686961_1_alg».proof.Proof.Gen.KernelIdeal.Launch
import proofs.«111650_j67018669686961_1_alg».proof.Proof.Gen.KernelIdeal.Skeleton
import proofs.«111650_j67018669686961_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- The program is the region alone, so the region finds every array as launched. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window w's tile at point t, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row tile's buffer holds the row tile at every point. -/
theorem before_rows_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The all-rows buffer holds the batch's rows at every point: fetched at the first point of each batch, and left in
    place by the body at the three points after it, where the batch has not changed. -/
theorem before_all_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output tile -/

abbrev rRows : Rect S1x512x256 := Rect.unit (s := S1x512x256) ![0, 0, 0] S1x512x256.size inb_S1x512x256_S1x512x256_0_0_0
abbrev rAll : Rect S1x2048x256 := Rect.unit (s := S1x2048x256) ![0, 0, 0] S1x2048x256.size inb_S1x2048x256_S1x2048x256_0_0_0
abbrev rOut : Rect S1x512x2048 := Rect.unit (s := S1x512x2048) ![0, 0, 0] S1x512x2048.size inb_S1x512x2048_S1x512x2048_0_0_0

/-- The output tile after the body: its one store, of the body's arithmetic on the two input tiles. -/
def outTile (x0 : Vec F S1x512x256 .f32) (x1 : Vec F S1x2048x256 .f32) : Vec F S1x512x2048 .f32 :=
  View.canon [⟨rOut, k0_pay1 (View.ld x0 rRows) (View.ld x1 rAll)⟩]

/-- The one store covers the tile. -/
theorem outCover (p0 : Vec F S1x512x2048 .f32) (y : S1x512x2048.Idx) :
    ∃ pc ∈ ([⟨rOut, p0⟩] : List (View.Piece (Elt F) S1x512x2048 .f32)), y ∈ pc.1.set :=
  View.cover_of_tiled [⟨rOut, p0⟩] S1x512x2048.size (by rfl) y

set_option maxHeartbeats 1000000 in
/-- The body on whole buffers, the inputs' at x0 and x1 and the output's at anything: it ends with the inputs as they
    were and the output at outTile x0 x1. -/
theorem sound_kernel (c : Dev nD) (E : Set ℕ) (i : grid0.Coords) (arg2 : Memref sig .tc .vmem S1x512x256 .f32) (harg2 : arg2.IsWhole) (arg3 : Memref sig .tc .vmem S1x2048x256 .f32) (harg3 : arg3.IsWhole) (arg4 : Memref sig .tc .vmem S1x512x2048 .f32) (harg4 : arg4.IsWhole)
    (x0 : Vec F S1x512x256 .f32) (x1 : Vec F S1x2048x256 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outTile x0 x1)) -∗ K ⟨⟩))
      ⊢ wp frame (wpE (defs₀ (F := F)) Variants.none c none) E (cc0__dist_kernel i arg2 harg2 arg3 harg3 arg4 harg4) K := by
  simp only [cc0__dist_kernel_eq_skeleton]; unfold cc0__dist_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outCover _)

/-! ## The proof data -/

/-- Per core: the arrays as launched; after the body each input buffer at its tile and the output buffer at the body's
    function of the two; between points only the scoped buffers that are no staging buffer; the shared array's full share
    halved between the two windows that read it; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outTile (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_rows (c : Dev nD) (t : Fin cfg0.N) : (dats m 0 c).after 0 t = iblk m c 0 t := by dsimp only [dats]
theorem after_all (c : Dev nD) (t : Fin cfg0.N) : (dats m 0 c).after 1 t = iblk m c 1 t := by dsimp only [dats]
theorem after_out (c : Dev nD) (t : Fin cfg0.N) : (dats m 0 c).after 2 t = outTile (iblk m c 0 t) (iblk m c 1 t) := by dsimp only [dats]

theorem before_rows (c : Dev nD) (t : Fin cfg0.N) (d) : (dats m 0 c).before 0 t d = iblk m c 0 t :=
  before_rows_of m (dats m 0 c) (A_eq m c 0) (after_rows m c) t d
theorem before_all (c : Dev nD) (t : Fin cfg0.N) (d) : (dats m 0 c).before 1 t d = iblk m c 1 t :=
  before_all_of m (dats m 0 c) (A_eq m c 1) (after_all m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_rows, before_all]
  rw [show (dats m 0 c).Φ t.succ = (dats m 0 c).Φ t.castSucc from rfl,
    show (dats m 0 c).owesAt () t.succ = (dats m 0 c).owesAt () t.castSucc from rfl,
    after_rows, after_all, after_out]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## Dealing the arrays to the windows -/

theorem share_rows (c : Dev nD) : (dats m 0 c).share 0 = fullShare.left := rfl
theorem share_all (c : Dev nD) : (dats m 0 c).share 1 = fullShare.right := rfl
theorem share_out (c : Dev nD) : (dats m 0 c).share 2 = fullShare := rfl

/-- A resource that splits in two, beside another: the three in a row. -/
theorem deal_halves {A AL AR B : sProp 𝕄} (h : A ⊢ BI.sep AL AR) : BI.sep A B ⊢ BI.sep AL (BI.sep AR B) :=
  (Idealize.SL.BI.sep_mono_l h).trans Idealize.SL.BI.sep_assoc

/-- The two distinct arrays behind the three windows, each whole at the full share, are the windows' arrays at their
    shares: the argument array's full share is its left half (the row tile's window) and its right half (the all-rows
    window), the result array goes whole to the output window. -/
theorem arrays_dealt (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_W0]
  rw [bigSep_eq_bigSepL_of_eq [main_arg0, main_v0] (by decide) (by decide)]
  simp only [bigSepL_cons_cons, bigSepL_singleton]
  rw [share_rows, share_all, share_out]
  rw [show (dats m 0 c).arrAt 0 0 = V m c main_arg0 from rfl, show (dats m 0 c).arrAt 1 0 = V m c main_arg0 from rfl,
    show (dats m 0 c).arrAt 2 0 = V m c main_v0 from rfl]
  rw [(Memref.isWhole_whole main_arg0).set_eq_univ, (Memref.isWhole_whole main_v0).set_eq_univ]
  exact deal_halves (pointsTo_share (PosShare.mem_left_op_right fullShare)).1

/-! ## The run -/

theorem inv_eq (c : Dev nD) (t : Fin (cfg0.N + 1)) :
    (dats m 0 c).Φ t = Pipeline.scopedRest (Ix := Unit) (Name := ℕ) (U := UR sig nD τ) (Lvl := ℕ) (Val := Elt F) (cfgs 0).spec c := rfl

set_option backward.isDefEq.respectTransparency.types false in
/-- From any memory with zero counters every weakly fair execution of the program ends, faulting nowhere, with every
    window's array at what the write-backs of the proof data make of its entry contents. -/
theorem run_main : θ_run defs (onTc (τ := τ) (main (F := F))) (s₀ m ρ)
    (fun r => ∀ c : Dev nD, ∀ w : Fin cfg0.W, r.2.mem ((cfg0.spec w).arr.view.loc (c.tc : Thread nD τ)) = (dats m 0 c).arrAt w cfg0.N) :=
  Pipeline.θ_run_region_noSem_shared (Ix := Unit) (Name := ℕ) (U := UR sig nD τ) (Lvl := ℕ) cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := arrays_dealt m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by rw [inv_eq]; iintro ⟨-, H⟩; iexact H)
    (hout := fun c => by rw [inv_eq]; iintro H; isplitr; · iempintro
                         iexact H)
    (QY := fun _ _ => True)
    (hY := fun c s' => by iintro ⟨-, -, HSI⟩; imodintro; isplitr; · ipureintro; trivial
                          iexact HSI)
    (hQ := fun s h c w => (h c).1 w)

/-- info: 'Cert.KernelIdeal.Tile.run_main' depends on axioms: [propext, Classical.choice, Quot.sound] -/
#guard_msgs in #print axioms run_main

/-- The frame: the program ends, faults nowhere, and leaves its argument array as launched — an input window's array is
    never written back. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c 0).trans (((dats m 0 c).arrAt_in 0 rfl _).trans (A_eq m c 0))) (run_main m ρ)

end Cert.KernelIdeal.Tile

end
-- ==== Proof.LibKeepdimsColumn.lean ====
/-
  Column forms of the layout operations a row-wise reduction with kept dimension meets: a vector cast to a one-column
  matrix, and a one-column matrix broadcast across columns. Both read the operand at the row alone.
-/
import Idealize.ShloMosaic.Lib.Pipeline.Value
import Idealize.ShloMosaic.Lib.ValueIdx

namespace Idealize.ShloMosaic.ValueLayout

open Idealize.ShloMosaic.ValueIdx

variable {α : Type}

/-- An [a] vector cast to an [a, 1] column reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the operand's row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueLayout
-- ==== Proof.TileDistances.lean ====
/-
  The body's arithmetic on one tile, read at an entry, over the extended reals.

  The body is handed a tile of 512 rows (the "near" rows) and all 2048 rows of the batch (the "far" rows). Entry (p, q) of
  what it stores is ‖near p‖² + ‖far q‖² − 2 ⟨near p, far q⟩, clamped below at zero: the two squared norms are row sums of
  squares, spread along a column and along a row; the inner product is the matrix unit's contraction over the 256 entries,
  into a zero accumulator; narrowing the operands to sixteen bits changes nothing over the extended reals.
-/
import proofs.«111650_j67018669686961_1_alg».proof.Proof.Gen.KernelIdeal.Skeleton
import proofs.«111650_j67018669686961_1_alg».proof.Proof.LibKeepdimsColumn
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.TileMath

open Cert.KernelIdeal Cert.KernelIdeal.Gen Idealize.ShloMosaic Idealize.ShloMosaic.ValueIdx Idealize.ShloMosaic.ValueLayout

/-! ## Row sums of squares -/

/-- The sum along a row of the near tile's squares. -/
theorem near_rowSq (v : FVec Ideal S512x256 .f32) (h : S512x256.Reduces [1] S512) (p : Fin 512) :
    multiReduction .add [1] S512 (mulf v v) 0x00000000#32 h (.inl rfl) rfl (ix1 p) = ∑ k : Fin 256, v (ix2 p k) * v (ix2 p k) := by
  refine (Ideal.multiReduction_add_single (mulf v v) 0x00000000#32 h (.inl rfl) rfl (ix1 p)).trans ?_
  refine Finset.sum_congr rfl fun k _ => ?_
  exact congrArg (fun j => v j * v j) (funext fun a => Fin.ext (by match a with | ⟨0, _⟩ => rfl | ⟨1, _⟩ => rfl))

/-- The sum along a row of the far rows' squares. -/
theorem far_rowSq (v : FVec Ideal S2048x256 .f32) (h : S2048x256.Reduces [1] S2048) (q : Fin 2048) :
    multiReduction .add [1] S2048 (mulf v v) 0x00000000#32 h (.inl rfl) rfl (ix1 q) = ∑ k : Fin 256, v (ix2 q k) * v (ix2 q k) := by
  refine (Ideal.multiReduction_add_single (mulf v v) 0x00000000#32 h (.inl rfl) rfl (ix1 q)).trans ?_
  refine Finset.sum_congr rfl fun k _ => ?_
  exact congrArg (fun j => v j * v j) (funext fun a => Fin.ext (by match a with | ⟨0, _⟩ => rfl | ⟨1, _⟩ => rfl))

/-! ## The contraction -/

abbrev gramDims := dot_S512x256_S2048x256_S512x2048_1_1_0_0_n_n

theorem near_row (i : S512x2048.Idx) (c : dot_S512x256_S2048x256_S512x2048_1_1_0_0_n_n.contr.Idx) :
    (dot_S512x256_S2048x256_S512x2048_1_1_0_0_n_n.lhsIdx i c 0).val = (i 0).val := by
  unfold DotDims.lhsIdx
  rw [dif_neg (show ¬(0 : Fin S512x256.rank) ∈ dot_S512x256_S2048x256_S512x2048_1_1_0_0_n_n.lhsBatch by decide), dif_pos (show (0 : Fin S512x256.rank) ∈ dot_S512x256_S2048x256_S512x2048_1_1_0_0_n_n.lhsNonContracting by decide)]
  rfl
theorem near_col (i : S512x2048.Idx) (c : dot_S512x256_S2048x256_S512x2048_1_1_0_0_n_n.contr.Idx) :
    (dot_S512x256_S2048x256_S512x2048_1_1_0_0_n_n.lhsIdx i c 1).val = (c ⟨0, by decide⟩).val :=
  dot_S512x256_S2048x256_S512x2048_1_1_0_0_n_n.lhsIdx_val_of_single rfl i c
theorem far_row (i : S512x2048.Idx) (c : dot_S512x256_S2048x256_S512x2048_1_1_0_0_n_n.contr.Idx) :
    (dot_S512x256_S2048x256_S512x2048_1_1_0_0_n_n.rhsIdx i c 0).val = (i 1).val := by
  unfold DotDims.rhsIdx
  rw [dif_neg (show ¬(0 : Fin S2048x256.rank) ∈ dot_S512x256_S2048x256_S512x2048_1_1_0_0_n_n.rhsBatch by decide), dif_pos (show (0 : Fin S2048x256.rank) ∈ dot_S512x256_S2048x256_S512x2048_1_1_0_0_n_n.rhsNonContracting by decide)]
  rfl
theorem far_col (i : S512x2048.Idx) (c : dot_S512x256_S2048x256_S512x2048_1_1_0_0_n_n.contr.Idx) :
    (dot_S512x256_S2048x256_S512x2048_1_1_0_0_n_n.rhsIdx i c 1).val = (c ⟨0, by decide⟩).val :=
  dot_S512x256_S2048x256_S512x2048_1_1_0_0_n_n.rhsIdx_val_of_single rfl i c

/-- The matrix unit's product into a zero accumulator, at (p, q): the inner product of near row p and far row q. -/
theorem gram_apply (l : FVec Ideal S512x256 .bf16) (r : FVec Ideal S2048x256 .bf16) (p : Fin 512) (q : Fin 2048) :
    matmul dot_S512x256_S2048x256_S512x2048_1_1_0_0_n_n none l r (constant S512x2048 .f32 0x00000000#32) (ix2 p q)
      = ∑ k : Fin 256, l (ix2 p k) * r (ix2 q k) := by
  simp only [matmul]
  rw [Ideal.matmul_constant_zero_apply, ← Equiv.sum_comp (ValueIdx.contrEquiv1 dot_S512x256_S2048x256_S512x2048_1_1_0_0_n_n 256 rfl rfl).symm]
  refine Finset.sum_congr rfl fun k _ => ?_
  have hk := ValueIdx.contrEquiv1_symm_val dot_S512x256_S2048x256_S512x2048_1_1_0_0_n_n 256 rfl rfl k
  have el : dot_S512x256_S2048x256_S512x2048_1_1_0_0_n_n.lhsIdx (ix2 p q) ((ValueIdx.contrEquiv1 dot_S512x256_S2048x256_S512x2048_1_1_0_0_n_n 256 rfl rfl).symm k) = ix2 p k := funext fun a => Fin.ext (by
    match a with
    | ⟨0, _⟩ => exact near_row _ _
    | ⟨1, _⟩ => exact (near_col _ _).trans hk)
  have er : dot_S512x256_S2048x256_S512x2048_1_1_0_0_n_n.rhsIdx (ix2 p q) ((ValueIdx.contrEquiv1 dot_S512x256_S2048x256_S512x2048_1_1_0_0_n_n 256 rfl rfl).symm k) = ix2 q k := funext fun a => Fin.ext (by
    match a with
    | ⟨0, _⟩ => exact far_row _ _
    | ⟨1, _⟩ => exact (far_col _ _).trans hk)
  rw [el, er]

/-! ## The stored tile at an entry -/

/-- Entry (p, q) of the tile the body stores, from its two loaded blocks. -/
theorem tile_apply (x0 : Vec Ideal S1x512x256 .f32) (x1 : Vec Ideal S1x2048x256 .f32) (u : Fin 1) (p : Fin 512) (q : Fin 2048) :
    k0_pay1 (F := Ideal) x0 x1 (ix3 u p q)
      = max ((∑ k : Fin 256, x0 (ix3 (0 : Fin 1) p k) * x0 (ix3 (0 : Fin 1) p k)) + (∑ k : Fin 256, x1 (ix3 (0 : Fin 1) q k) * x1 (ix3 (0 : Fin 1) q k))
          - Ideal.ofBits .f32 0x40000000#32 * ∑ k : Fin 256, x0 (ix3 (0 : Fin 1) p k) * x1 (ix3 (0 : Fin 1) q k))
        (Ideal.ofBits .f32 0x00000000#32) := by
  unfold k0_pay1
  dsimp only
  rw [shapeCast_ab_1ab_apply]
  rw [maximumf_apply, subf_apply, addf_apply, mulf_apply, broadcast_apply, broadcast_apply]
  rw [broadcastTo_a1_ab_apply, broadcastTo_1b_ab_apply, shapeCast_a_a1_apply, shapeCast_a_1a_apply]
  rw [near_rowSq, far_rowSq, gram_apply]
  simp only [truncf_apply, shapeCast_1ab_ab_apply]
  rfl

end Cert.KernelIdeal.TileMath

end
-- ==== Proof.SquaredDistances.lean ====
/-
  Pairwise squared Euclidean distances between the rows of each batch, by the expansion
  ‖r − s‖² = ‖r‖² + ‖s‖² − 2 ⟨r, s⟩, clamped below at zero — over the extended reals, index by index.
  The literal 2 and the literal 0 are kept as the bit patterns both programs print; neither is evaluated.
-/
import Idealize.ShloMosaic.PureOps.Ideal
import Idealize.ShloMosaic.Lib.ValueIdx

noncomputable section

namespace Cert.Distances

open Idealize.ShloMosaic Idealize.ShloMosaic.ValueIdx

/-- 8 batches of 2048 rows of 256 entries. -/
abbrev Rows : Shape := ⟨3, ![8, 2048, 256]⟩
/-- Per batch, a 2048 × 2048 table. -/
abbrev Table : Shape := ⟨3, ![8, 2048, 2048]⟩

/-- The squared norm of row r of batch b. -/
def rowSq (x : Rows.Idx → EReal) (b : Fin 8) (r : Fin 2048) : EReal :=
  ∑ k : Fin 256, x (ix3 b r k) * x (ix3 b r k)

/-- The inner product of rows r and s of batch b. -/
def rowDot (x : Rows.Idx → EReal) (b : Fin 8) (r s : Fin 2048) : EReal :=
  ∑ k : Fin 256, x (ix3 b r k) * x (ix3 b s k)

/-- ‖r‖² + ‖s‖² − 2 ⟨r, s⟩, clamped below at zero. -/
def sqDist (x : Rows.Idx → EReal) (b : Fin 8) (r s : Fin 2048) : EReal :=
  max (rowSq x b r + rowSq x b s - Ideal.ofBits .f32 0x40000000#32 * rowDot x b r s) (Ideal.ofBits .f32 0x00000000#32)

/-- The whole table. -/
def table (x : Rows.Idx → EReal) : Table.Idx → EReal := fun i => sqDist x (i 0) (i 1) (i 2)

theorem table_apply (x : Rows.Idx → EReal) (b : Fin 8) (r s : Fin 2048) : table x (ix3 b r s) = sqDist x b r s := rfl

end Cert.Distances

end
-- ==== Proof.TileTable.lean ====
/-
  The idealized kernel's result array is the table of squared distances.

  Point (b, i) of the grid writes back the tile of rows [512 i, 512 i + 512) of batch b's table; its near rows are those
  rows of the argument and its far rows all 2048 rows of batch b, so the tile's entry (p, q) is the table's entry
  (b, 512 i + p, q). The 8 × 4 tiles cover the table, so the array ends as the table everywhere.
-/
import proofs.«111650_j67018669686961_1_alg».proof.Proof.TileRunIdeal
import proofs.«111650_j67018669686961_1_alg».proof.Proof.TileDistances
import proofs.«111650_j67018669686961_1_alg».proof.Proof.SquaredDistances
import Idealize.ShloMosaic.Lib.Pipeline.Value

set_option maxRecDepth 16384

noncomputable section

namespace Cert.KernelIdeal.TileValue

open Cert.KernelIdeal Cert.KernelIdeal.Gen Cert.KernelIdeal.Tile Cert.KernelIdeal.TileMath
open Idealize.ShloMosaic Idealize.ShloMosaic.TcCoe Idealize.SL.Sem Idealize.ShloMosaic.ValueIdx
open Idealize.ShloMosaic.Pipeline (Dat)
open Cert.Distances (table sqDist rowSq rowDot table_apply)

variable (m : (ℓ : Loc nD τ sig) → Buf (Elt Ideal) ℓ) (ρ : Dev nD → PrngReg)

theorem origin3 : (![0, 0, 0] : Fin 3 → Nat) = fun _ => 0 := funext fun a => by fin_cases a <;> rfl

/-- Where each window's tile sits at each point, decided over the 32 points: the near tile moves with the output tile on
    the batch and row-tile axes; the far rows move with it on the batch axis only; every other block index is zero. -/
theorem tile_places : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (2 : Fin 3) = 0 ∧ win0_2.index t (0 : Fin 3) ≤ 7 ∧ win0_2.index t (1 : Fin 3) ≤ 3 :=
  (by decide +kernel : ∀ t : Fin grid0.N, _)

/-- Every (batch, row tile) is some point's. -/
theorem tile_onto : ∀ (b : Fin 8) (i : Fin 4), ∃ t : Fin cfg0.N, win0_2.index t = ![b.val, i.val, 0] :=
  (by decide +kernel : ∀ (b : Fin 8) (i : Fin 4), ∃ t : Fin grid0.N, win0_2.index t = ![b.val, i.val, 0])

/-- What point t writes back is its tile of the table of the argument array. -/
theorem flushed_eq (c : Dev nD) (t : Fin cfg0.N) :
    (dats m 0 c).flushed 2 t = ((cfg0.win 2).blk t).view.read (Elt Ideal) (table (V m c main_arg0)) := by
  show (cfg0.win 2).cut (grid0.coords t) ((dats m 0 c).after 2 t) = _
  rw [after_out]
  unfold outTile
  rw [View.canon_unit_zero origin3]
  simp only [View.ld_unit_zero (S := S1x512x256) origin3, View.ld_unit_zero (S := S1x2048x256) origin3]
  obtain ⟨e0, e1, e2, e3, e4, e5, e6, e7, e8⟩ := tile_places t
  funext j
  obtain ⟨u, p, q, rfl⟩ : ∃ (u : Fin 1) (p : Fin 512) (q : Fin 2048), j = ix3 u p q := ⟨j 0, j 1, j 2, eq_ix3 j⟩
  have hu : u.val = 0 := by omega
  have hp : p.val < 512 := p.isLt
  have hq : q.val < 2048 := q.isLt
  refine (tile_apply (iblk m c 0 t) (iblk m c 1 t) u p q).trans ?_
  -- the table's entry this tile entry is
  have hplace : ((cfg0.win 2).blk t).view.emb (ix3 u p q)
      = ix3 (⟨win0_2.index t (0 : Fin 3), by omega⟩ : Fin 8) (⟨win0_2.index t (1 : Fin 3) * 512 + p.val, by omega⟩ : Fin 2048) q := by
    funext a; apply Fin.ext
    match a with
    | ⟨0, _⟩ => show win0_2.index t (0 : Fin 3) * 1 + 1 * u.val = win0_2.index t (0 : Fin 3); omega
    | ⟨1, _⟩ => show win0_2.index t (1 : Fin 3) * 512 + 1 * p.val = win0_2.index t (1 : Fin 3) * 512 + p.val; omega
    | ⟨2, _⟩ => show win0_2.index t (2 : Fin 3) * 2048 + 1 * q.val = q.val; omega
  -- the near tile's rows are the argument's rows of that row tile
  have hnear : ∀ k : Fin 256, iblk m c 0 t (ix3 (0 : Fin 1) p k)
      = V m c main_arg0 (ix3 (⟨win0_2.index t (0 : Fin 3), by omega⟩ : Fin 8) (⟨win0_2.index t (1 : Fin 3) * 512 + p.val, by omega⟩ : Fin 2048) k) := fun k => by
    have hk : k.val < 256 := k.isLt
    show V m c main_arg0 (((cfg0.win 0).blk t).view.emb (ix3 (0 : Fin 1) p k)) = _
    refine congrArg (V m c main_arg0) ?_
    funext a; apply Fin.ext
    match a with
    | ⟨0, _⟩ => show win0_0.index t (0 : Fin 3) * 1 + 1 * 0 = win0_2.index t (0 : Fin 3); omega
    | ⟨1, _⟩ => show win0_0.index t (1 : Fin 3) * 512 + 1 * p.val = win0_2.index t (1 : Fin 3) * 512 + p.val; omega
    | ⟨2, _⟩ => show win0_0.index t (2 : Fin 3) * 256 + 1 * k.val = k.val; omega
  -- the far rows are all the rows of that batch
  have hfar : ∀ k : Fin 256, iblk m c 1 t (ix3 (0 : Fin 1) q k)
      = V m c main_arg0 (ix3 (⟨win0_2.index t (0 : Fin 3), by omega⟩ : Fin 8) q k) := fun k => by
    have hk : k.val < 256 := k.isLt
    show V m c main_arg0 (((cfg0.win 1).blk t).view.emb (ix3 (0 : Fin 1) q k)) = _
    refine congrArg (V m c main_arg0) ?_
    funext a; apply Fin.ext
    match a with
    | ⟨0, _⟩ => show win0_1.index t (0 : Fin 3) * 1 + 1 * 0 = win0_2.index t (0 : Fin 3); omega
    | ⟨1, _⟩ => show win0_1.index t (1 : Fin 3) * 2048 + 1 * q.val = q.val; omega
    | ⟨2, _⟩ => show win0_1.index t (2 : Fin 3) * 256 + 1 * k.val = k.val; omega
  show _ = table (V m c main_arg0) (((cfg0.win 2).blk t).view.emb (ix3 u p q))
  rw [hplace, table_apply]
  unfold sqDist rowSq rowDot
  simp only [hnear, hfar]

/-- An index of the table is in point t's tile iff each coordinate is in the tile's range on its axis. -/
theorem mem_tile (t : Fin cfg0.N) (i : S8x2048x2048.Idx) :
    i ∈ ((cfg0.win 2).blk t).view.set ↔ ∀ a : Fin 3, win0_2.index t a * S1x512x2048.size a ≤ (i a).val ∧ (i a).val < win0_2.index t a * S1x512x2048.size a + S1x512x2048.size a := by
  show i ∈ ((View.whole main_v0).slice (win0_2.rect t)).set ↔ _
  rw [View.set_slice_whole, Rect.mem_set_unit]
  exact Iff.rfl

/-- The tiles cover the table. -/
theorem tiles_cover (i : S8x2048x2048.Idx) : ∃ t : Fin cfg0.N, (cfg0.win 2).flush t = true ∧ i ∈ ((cfg0.win 2).blk t).view.set := by
  have hi0 : (i 0).val < 8 := (i 0).isLt
  have hi1 : (i 1).val < 2048 := (i 1).isLt
  have hi2 : (i 2).val < 2048 := (i 2).isLt
  obtain ⟨t, ht⟩ := tile_onto ⟨(i 0).val, hi0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [mem_tile]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 2048 ≤ (i 2).val ∧ (i 2).val < win0_2.index t (2 : Fin 3) * 2048 + 2048; omega

/-- The result array after the run is the table of the argument array. -/
theorem result_eq (c : Dev nD) : (dats m 0 c).arrAt 2 cfg0.N = table (V m c main_arg0) :=
  (dats m 0 c).arrAt_eq_of_cover 2 (table (V m c main_arg0)) (fun t _ => flushed_eq m c t) tiles_cover

/-- The run, read: the result is the table of squared distances of the argument, the argument unchanged. -/
theorem run : θ_run defs (onTc (τ := τ) (main (F := Ideal))) ⟨m, fun _ => 0, ρ⟩ fun r => ∀ c : Dev nD,
      r.2.mem ((c.tc : Thread nD τ).loc main_v0) = table (m ((c.tc : Thread nD τ).loc main_arg0))
      ∧ r.2.mem ((c.tc : Thread nD τ).loc main_arg0) = m ((c.tc : Thread nD τ).loc main_arg0) :=
  (θ_run defs _ _).mono (fun r h c => ⟨(h c 2).trans (result_eq m c),
      (h c 0).trans (((dats m 0 c).arrAt_in 0 rfl _).trans (A_eq m c 0))⟩)
    (run_main m ρ)

end Cert.KernelIdeal.TileValue

end
-- ==== Proof.RefDistances.lean ====
/-
  The reference computes the table of squared distances.

  Read one operation at a time, at an entry (b, r, s): the row sums of squares are taken once, as 0 + the sum along a row,
  and spread along columns and along rows; the inner products are one batched contraction; then the sum of the two norms
  less twice the inner product, clamped below at zero. The initial value 0 of the row sums is the additive unit.
-/
import proofs.«111650_j67018669686961_1_alg».proof.Proof.Gen.ReferenceIdeal.Read
import proofs.«111650_j67018669686961_1_alg».proof.Proof.SquaredDistances
import Idealize.ShloMosaic.PureOps.Ideal.Laws
import Idealize.ShloMosaic.Lib.ValueIdx

noncomputable section

namespace Cert.ReferenceIdeal.RefTable

open Cert.ReferenceIdeal Cert.ReferenceIdeal.Gen Cert.ReferenceIdeal.Read Idealize.ShloMosaic Idealize.ShloMosaic.ValueIdx
open Cert.Distances (table sqDist rowSq rowDot table_apply)

/-- The row whose squared norm is spread along the columns of entry (b, r, s) is row r; -/
theorem norm_row_near (b : Fin 8) (r s : Fin 2048) (k : Fin 256) :
    idx_main_v1 (idx_main_v3 (idx_main_v5 (ix3 b r s))) k = ix3 b r k :=
  funext fun a => Fin.ext (by match a with | ⟨0, _⟩ => rfl | ⟨1, _⟩ => rfl | ⟨2, _⟩ => rfl)
/-- along its rows, row s. -/
theorem norm_row_far (b : Fin 8) (r s : Fin 2048) (k : Fin 256) :
    idx_main_v1 (idx_main_v4 (idx_main_v6 (ix3 b r s))) k = ix3 b s k :=
  funext fun a => Fin.ext (by match a with | ⟨0, _⟩ => rfl | ⟨1, _⟩ => rfl | ⟨2, _⟩ => rfl)
/-- The contraction at (b, r, s) pairs row r -/
theorem dot_row_near (b : Fin 8) (r s : Fin 2048) (k : Fin 256) : lidx_main_v2 (ix3 b r s) k = ix3 b r k :=
  funext fun a => Fin.ext (by match a with | ⟨0, _⟩ => rfl | ⟨1, _⟩ => rfl | ⟨2, _⟩ => rfl)
/-- with row s. -/
theorem dot_row_far (b : Fin 8) (r s : Fin 2048) (k : Fin 256) : ridx_main_v2 (ix3 b r s) k = ix3 b s k :=
  funext fun a => Fin.ext (by match a with | ⟨0, _⟩ => rfl | ⟨1, _⟩ => rfl | ⟨2, _⟩ => rfl)

/-- The reference's last stage is the table. -/
theorem ref_is_table (x : (⟨S8x2048x256, .f32⟩ : BufTy).Contents (Elt Ideal)) : val_main_v12 (F := Ideal) x = table x := by
  funext i
  obtain ⟨b, r, s, rfl⟩ : ∃ (b : Fin 8) (r : Fin 2048) (s : Fin 2048), i = ix3 b r s := ⟨i 0, i 1, i 2, eq_ix3 i⟩
  rw [table_apply]
  rw [val_main_v12_apply, val_main_v10_apply, val_main_v7_apply, val_main_v9_apply, val_main_v5_apply, val_main_v6_apply,
    val_main_v3_apply, val_main_v4_apply, val_main_v1_apply, val_main_v1_apply, val_main_v2_apply, val_main_v8_apply,
    val_main_v11_apply, val_main_cst_0_apply, val_main_cst_1_apply, val_main_cst_apply]
  simp only [val_main_v0_apply, norm_row_near, norm_row_far, dot_row_near, dot_row_far,
    Ideal.maximumf_def, Ideal.subf_def, Ideal.addf_def, Ideal.mulf_def, Ideal.ofBits_def, Ideal.ofBits_zero_f32, zero_add]
  unfold sqDist rowSq rowDot
  rw [Ideal.ofBits_zero_f32]

end Cert.ReferenceIdeal.RefTable

end
-- ==== Proof.lean ====
/-
  Pairwise squared Euclidean distances, tile by tile on the kernel's side and in one pass on the reference's, are one
  function of the argument over the extended reals.

  Both programs expand ‖r − s‖² as ‖r‖² + ‖s‖² − 2 ⟨r, s⟩ and clamp at zero, with the same two literals, in the same order
  of operations; they differ only in how the work is cut up. The kernel walks a grid of 8 batches × 4 row tiles, each point
  computing a 512 × 2048 tile from the tile's 512 rows and all 2048 rows of the batch, the inner products on the matrix
  unit with operands narrowed to sixteen bits — which over the extended reals is no change. The reference takes the squared
  norms once and the inner products as one batched contraction. Entry by entry the two are the same sums of the same
  products, so no law of arithmetic beyond 0 + a = a is used and the inputs' finiteness is never opened.

  The three frames: each kernel program runs to the end leaving its argument untouched because the argument is only
  ever read — by two windows at once, each holding half of its share —; the reference's frame is its run with the
  result dropped. The idealization rewrote nothing, so there is nothing to preserve.
-/
import proofs.«111650_j67018669686961_1_alg».proof.Defs
import proofs.«111650_j67018669686961_1_alg».proof.Proof.Gen.Kernel
import proofs.«111650_j67018669686961_1_alg».proof.Proof.Gen.KernelIdeal
import proofs.«111650_j67018669686961_1_alg».proof.Proof.Gen.ReferenceIdeal
import proofs.«111650_j67018669686961_1_alg».proof.Proof.Gen.Pre_finite_inputs
import proofs.«111650_j67018669686961_1_alg».proof.Proof.Gen.ReferenceIdeal.Run
import proofs.«111650_j67018669686961_1_alg».proof.Proof.Gen.ReferenceIdeal.Read
import proofs.«111650_j67018669686961_1_alg».proof.Proof.TileRunBits
import proofs.«111650_j67018669686961_1_alg».proof.Proof.TileRunIdeal
import proofs.«111650_j67018669686961_1_alg».proof.Proof.TileTable
import proofs.«111650_j67018669686961_1_alg».proof.Proof.RefDistances
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Tile.frame m ρ

theorem frame_kernel_ideal : Cert.frame_KernelIdeal := fun m ρ _ => Cert.KernelIdeal.Tile.frame m ρ

theorem frame_reference : Cert.frame_ReferenceIdeal := fun m ρ _ =>
  (θ_run Cert.ReferenceIdeal.defs _ _).mono (fun _ h c => (h c).2) (Cert.ReferenceIdeal.Value.run (F := Ideal) m ρ)

/-- From arguments that agree, the kernel's result array ends as the table of squared distances of its argument, and the
    reference's last stage is the same table of its own. -/
theorem algebraic : Cert.algebraic_KernelIdeal_ReferenceIdeal := by
  intro m ρ m' ρ' _ hagree
  refine ⟨fun c => Cert.Distances.table (m ((c.tc : Thread Cert.KernelIdeal.nD Cert.KernelIdeal.τ).loc Cert.KernelIdeal.main_arg0)),
    Cert.KernelIdeal.TileValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefTable.ref_is_table, hagree c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
